-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x11x384x384 : Shape := ⟨4, ![32, 11, 384, 384]⟩
abbrev S32x384x384 : Shape := ⟨3, ![32, 384, 384]⟩
abbrev S_ : Shape := ⟨0, ![]⟩

class Facts : Prop where
  bcast_S_S32x11x384x384 : S_.BroadcastsInDim S32x11x384x384 (![] : Fin 0 → Fin S32x11x384x384.rank)
  reducesTo_S32x11x384x384_S_d0_1_2_3 : S32x11x384x384.ReducesTo [0, 1, 2, 3] S_
  h_S_ : 0 < S_.numel

variable [Facts]

def fn {F : FTy → Type} [FloatOps F] (main_arg0 : FVec F S32x11x384x384 .f32) (main_arg1 : FVec F S32x11x384x384 .f32) (main_arg2 : IVec S32x384x384 32) : IVec S_ 1 :=
  let main_v0 : FVec F S32x11x384x384 .f32 := Host.absf main_arg0
  let main_cst : FVec F S_ .f32 := constant S_ .f32 0x7F800000#32
  let main_v1 : FVec F S32x11x384x384 .f32 := broadcastInDim S32x11x384x384 ![] bcast_S_S32x11x384x384 main_cst
  let main_v2 : IVec S32x11x384x384 1 := cmpf .olt main_v0 main_v1
  let main_c : IVec S_ 1 := constantI S_ 1 1#1
  let main_v3 : IVec S_ 1 := (fun x v => Host.reduce IntOp.andi x v reducesTo_S32x11x384x384_S_d0_1_2_3 h_S_) main_v2 main_c
  let main_v4 : FVec F S32x11x384x384 .f32 := Host.absf main_arg1
  let main_cst_0 : FVec F S_ .f32 := constant S_ .f32 0x7F800000#32
  let main_v5 : FVec F S32x11x384x384 .f32 := broadcastInDim S32x11x384x384 ![] bcast_S_S32x11x384x384 main_cst_0
  let main_v6 : IVec S32x11x384x384 1 := cmpf .olt main_v4 main_v5
  let main_c_1 : IVec S_ 1 := constantI S_ 1 1#1
  let main_v7 : IVec S_ 1 := (fun x v => Host.reduce IntOp.andi x v reducesTo_S32x11x384x384_S_d0_1_2_3 h_S_) main_v6 main_c_1
  let main_v8 : IVec S_ 1 := andi main_v3 main_v7
  main_v8
-- ==== Kernel.lean ====
abbrev S32x11x384x384 : Shape := ⟨4, ![32, 11, 384, 384]⟩
abbrev S32x384x384 : Shape := ⟨3, ![32, 384, 384]⟩
abbrev S32x8x128 : Shape := ⟨3, ![32, 8, 128]⟩
abbrev S1x11x384x384 : Shape := ⟨4, ![1, 11, 384, 384]⟩
abbrev S1x384x384 : Shape := ⟨3, ![1, 384, 384]⟩
abbrev S1x8x128 : Shape := ⟨3, ![1, 8, 128]⟩
abbrev S384x384 : Shape := ⟨2, ![384, 384]⟩
abbrev S1x1x384x384 : Shape := ⟨4, ![1, 1, 384, 384]⟩
abbrev S1 : Shape := ⟨1, ![1]⟩
abbrev S1x1x1 : Shape := ⟨3, ![1, 1, 1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S32x11x384x384, .f32⟩
  | .hbm, ⟨1, _⟩ => ⟨S32x11x384x384, .f32⟩
  | .hbm, ⟨2, _⟩ => ⟨S32x384x384, .i32⟩
  | .hbm, ⟨3, _⟩ => ⟨S32x384x384, .f32⟩
  | .hbm, ⟨4, _⟩ => ⟨S32x8x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x11x384x384, .f32⟩
  | .local _ .vmem, ⟨1, _⟩ => ⟨S1x11x384x384, .f32⟩
  | .local _ .vmem, ⟨2, _⟩ => ⟨S1x11x384x384, .f32⟩
  | .local _ .vmem, ⟨3, _⟩ => ⟨S1x11x384x384, .f32⟩
  | .local _ .vmem, ⟨4, _⟩ => ⟨S1x384x384, .f32⟩
  | .local _ .vmem, ⟨5, _⟩ => ⟨S1x384x384, .f32⟩
  | .local _ .vmem, ⟨6, _⟩ => ⟨S1x8x128, .f32⟩
  | .local _ .vmem, ⟨7, _⟩ => ⟨S1x8x128, .f32⟩
  | _, _ => ⟨S32x11x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x11x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x11x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x11x384x384_S1x1x384x384_0_0_0_0 : ∀ a, (![0, 0, 0, 0] : Fin 4 → Nat) a + S1x1x384x384.size a ≤ S1x11x384x384.size a
  h_S1x1x384x384 : 0 < S1x1x384x384.numel
  shapeCasts_S1x1x384x384_S384x384 : S1x1x384x384.ShapeCasts S384x384
  bitsLt_bf16_f32 : FTy.bits .bf16 < FTy.bits .f32
  inb_S1x11x384x384_S1x1x384x384_0_1_0_0 : ∀ a, (![0, 1, 0, 0] : Fin 4 → Nat) a + S1x1x384x384.size a ≤ S1x11x384x384.size a
  inb_S1x11x384x384_S1x1x384x384_0_2_0_0 : ∀ a, (![0, 2, 0, 0] : Fin 4 → Nat) a + S1x1x384x384.size a ≤ S1x11x384x384.size a
  inb_S1x11x384x384_S1x1x384x384_0_3_0_0 : ∀ a, (![0, 3, 0, 0] : Fin 4 → Nat) a + S1x1x384x384.size a ≤ S1x11x384x384.size a
  inb_S1x11x384x384_S1x1x384x384_0_4_0_0 : ∀ a, (![0, 4, 0, 0] : Fin 4 → Nat) a + S1x1x384x384.size a ≤ S1x11x384x384.size a
  inb_S1x11x384x384_S1x1x384x384_0_5_0_0 : ∀ a, (![0, 5, 0, 0] : Fin 4 → Nat) a + S1x1x384x384.size a ≤ S1x11x384x384.size a
  inb_S1x11x384x384_S1x1x384x384_0_6_0_0 : ∀ a, (![0, 6, 0, 0] : Fin 4 → Nat) a + S1x1x384x384.size a ≤ S1x11x384x384.size a
  inb_S1x11x384x384_S1x1x384x384_0_7_0_0 : ∀ a, (![0, 7, 0, 0] : Fin 4 → Nat) a + S1x1x384x384.size a ≤ S1x11x384x384.size a
  inb_S1x11x384x384_S1x1x384x384_0_8_0_0 : ∀ a, (![0, 8, 0, 0] : Fin 4 → Nat) a + S1x1x384x384.size a ≤ S1x11x384x384.size a
  inb_S1x11x384x384_S1x1x384x384_0_9_0_0 : ∀ a, (![0, 9, 0, 0] : Fin 4 → Nat) a + S1x1x384x384.size a ≤ S1x11x384x384.size a
  inb_S1x11x384x384_S1x1x384x384_0_10_0_0 : ∀ a, (![0, 10, 0, 0] : Fin 4 → Nat) a + S1x1x384x384.size a ≤ S1x11x384x384.size a
  inb_S1x384x384_S1x384x384_0_0_0 : ∀ a, (![0, 0, 0] : Fin 3 → Nat) a + S1x384x384.size a ≤ S1x384x384.size a
  h_S1x384x384 : 0 < S1x384x384.numel
  shapeCasts_S1x384x384_S384x384 : S1x384x384.ShapeCasts S384x384
  shapeCasts_S384x384_S1x384x384 : S384x384.ShapeCasts S1x384x384
  reduces_S1x384x384_S1 : S1x384x384.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S384x384_S384x384_S384x384_1_0_0_1_n_n_wf : DotDims.WF S384x384 S384x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x11x384x384.size a ≤ S32x11x384x384.size a
  hwx0_0 : ∀ i : grid0.Coords, EltTy.bits .f32 = 32 ∨ (Rect.block (s := S32x11x384x384) S1x11x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x11x384x384.size a ≤ S32x11x384x384.size a
  hwx0_1 : ∀ i : grid0.Coords, EltTy.bits .f32 = 32 ∨ (Rect.block (s := S32x11x384x384) S1x11x384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x384.size a ≤ S32x384x384.size a
  hwx0_2 : ∀ i : grid0.Coords, EltTy.bits .f32 = 32 ∨ (Rect.block (s := S32x384x384) S1x384x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)

variable [Facts₀]

def dot_S384x384_S384x384_S384x384_1_0_0_1_n_n : DotDims S384x384 S384x384 S384x384 where
  lhsContracting := [1]
  rhsContracting := [0]
  lhsNonContracting := [0]
  rhsNonContracting := [1]
  lhsBatch := []
  rhsBatch := []
  wf := dot_S384x384_S384x384_S384x384_1_0_0_1_n_n_wf

abbrev win0_0 : Pipeline.Window sig grid0 :=
  Pipeline.Window.ofSpec (Memref.whole main_arg0) S1x11x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x11x384x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x384x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x11x384x384 : Shape := ⟨4, ![32, 11, 384, 384]⟩
abbrev S32x384x384 : Shape := ⟨3, ![32, 384, 384]⟩
abbrev S_ : Shape := ⟨0, ![]⟩
abbrev S32x1x384x384 : Shape := ⟨4, ![32, 1, 384, 384]⟩

abbrev nBuf : Space → Nat
  | .hbm => 41
  | .vmem => 0
  | .smem => 0
  | _ => 0

abbrev bufTy : (tb : Table) → Fin (tcTables nBuf tb) → BufTy
  | .hbm, ⟨0, _⟩ => ⟨S32x11x384x384, .f32⟩
  | .hbm, ⟨1, _⟩ => ⟨S32x11x384x384, .f32⟩
  | .hbm, ⟨2, _⟩ => ⟨S32x384x384, .i32⟩
  | .hbm, ⟨3, _⟩ => ⟨S32x11x384x384, .f32⟩
  | .hbm, ⟨4, _⟩ => ⟨S32x11x384x384, .f32⟩
  | .hbm, ⟨5, _⟩ => ⟨S32x11x384x384, .f32⟩
  | .hbm, ⟨6, _⟩ => ⟨S32x11x384x384, .f32⟩
  | .hbm, ⟨7, _⟩ => ⟨S_, .f32⟩
  | .hbm, ⟨8, _⟩ => ⟨S32x11x384x384, .f32⟩
  | .hbm, ⟨9, _⟩ => ⟨S32x11x384x384, .f32⟩
  | .hbm, ⟨10, _⟩ => ⟨S32x11x384x384, .f32⟩
  | .hbm, ⟨11, _⟩ => ⟨S_, .f32⟩
  | .hbm, ⟨12, _⟩ => ⟨S32x384x384, .f32⟩
  | .hbm, ⟨13, _⟩ => ⟨S_, .f32⟩
  | .hbm, ⟨14, _⟩ => ⟨S32x384x384, .f32⟩
  | .hbm, ⟨15, _⟩ => ⟨S32x384x384, .f32⟩
  | .hbm, ⟨16, _⟩ => ⟨S32x1x384x384, .f32⟩
  | .hbm, ⟨17, _⟩ => ⟨S32x11x384x384, .f32⟩
  | .hbm, ⟨18, _⟩ => ⟨S32x11x384x384, .f32⟩
  | .hbm, ⟨19, _⟩ => ⟨S32x11x384x384, .f32⟩
  | .hbm, ⟨20, _⟩ => ⟨S_, .f32⟩
  | .hbm, ⟨21, _⟩ => ⟨S32x384x384, .f32⟩
  | .hbm, ⟨22, _⟩ => ⟨S32x1x384x384, .f32⟩
  | .hbm, ⟨23, _⟩ => ⟨S32x11x384x384, .f32⟩
  | .hbm, ⟨24, _⟩ => ⟨S32x11x384x384, .f32⟩
  | .hbm, ⟨25, _⟩ => ⟨S_, .f32⟩
  | .hbm, ⟨26, _⟩ => ⟨S32x384x384, .f32⟩
  | .hbm, ⟨27, _⟩ => ⟨S32x384x384, .f32⟩
  | .hbm, ⟨28, _⟩ => ⟨S32x384x384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x384x384, .f32⟩
  | .hbm, ⟨33, _⟩ => ⟨S32x384x384, .f32⟩
  | .hbm, ⟨34, _⟩ => ⟨S_, .f32⟩
  | .hbm, ⟨35, _⟩ => ⟨S32x384x384, .f32⟩
  | .hbm, ⟨36, _⟩ => ⟨S32x384x384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S32x11x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S_S32x11x384x384 : S_.BroadcastsInDim S32x11x384x384 (![] : Fin 0 → Fin S32x11x384x384.rank)
  reducesTo_S32x11x384x384_S32x384x384_d1 : S32x11x384x384.ReducesTo [1] S32x384x384
  h_S_ : 0 < S_.numel
  bcast_S_S32x384x384 : S_.BroadcastsInDim S32x384x384 (![] : Fin 0 → Fin S32x384x384.rank)
  bcast_S32x384x384_S32x1x384x384_0_2_3 : S32x384x384.BroadcastsInDim S32x1x384x384 (![0, 2, 3] : Fin 3 → Fin S32x1x384x384.rank)
  bcast_S32x1x384x384_S32x11x384x384_0_1_2_3 : S32x1x384x384.BroadcastsInDim S32x11x384x384 (![0, 1, 2, 3] : Fin 4 → Fin S32x11x384x384.rank)
  reducesTo_S32x384x384_S_d0_1_2 : S32x384x384.ReducesTo [0, 1, 2] S_
  dot_S32x11x384x384_S32x11x384x384_S32x11x384x384_3_2_2_3_01_01_wf : DotDims.WF S32x11x384x384 S32x11x384x384 S32x11x384x384 [3] [2] [2] [3] [0, 1] [0, 1]

variable [Facts₀]

def dot_S32x11x384x384_S32x11x384x384_S32x11x384x384_3_2_2_3_01_01 : DotDims S32x11x384x384 S32x11x384x384 S32x11x384x384 where
  lhsContracting := [3]
  rhsContracting := [2]
  lhsNonContracting := [2]
  rhsNonContracting := [3]
  lhsBatch := [0, 1]
  rhsBatch := [0, 1]
  wf := dot_S32x11x384x384_S32x11x384x384_S32x11x384x384_3_2_2_3_01_01_wf

class Facts : Prop extends Facts₀ where

variable [Facts]
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finite.lean ====
/-
  The precondition, read at an entry: every entry of x and of the centers is a real number.

  The precondition is the conjunction of two statements "every |entry| is below +∞", one for x and one for the centers;
  its value 1 at the one index gives both, and each says its array holds real numbers only.
-/
import proofs.«131533_j1099511628281_1_alg».proof.Pre_finite_inputs
import proofs.«131533_j1099511628281_1_alg».proof.Proof.Gen.Pre_finite_inputs
import proofs.«131533_j1099511628281_1_alg».proof.Proof.LibFinite
import Idealize.ShloMosaic.Lib.ReduceAll
import Idealize.ShloMosaic.Lib.ValueIdx

noncomputable section

namespace Cert.Finite

open Idealize.ShloMosaic Cert.Pre_finite_inputs

/-- Where the precondition holds, x and the centers hold real numbers. -/
theorem real_of_pre (a0 a1 : FVec Ideal S32x11x384x384 .f32) (a2 : IVec S32x384x384 32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.1 h0
  exact ⟨LibFinite.real_of_all a0 _ _ _ _ e0, LibFinite.real_of_all a1 _ _ _ _ e1⟩

end Cert.Finite

end
-- ==== Proof.Softmax.lean ====
/-
  The largest softmax probability over eleven classes is the reciprocal of the partition sum.

  For logits a₀ … a₁₀ that are real numbers, put M = max a, e_c = exp (a_c − M), Z = Σ e_c. Every e_c is at most 1 and
  e_c = 1 where a_c = M, so Z ≥ 1 and max_c (e_c / Z) = 1 / Z. A kernel may therefore compute 1 / Z alone where the
  reference takes the maximum of the eleven quotients; the two ways of taking the maximum (an explicit running maximum
  from −∞, a fold over the class index) and of summing (left to right from 0, a sum over the class index) agree on the
  extended reals by the order's and the addition's laws alone. Only the quotient step needs the logits to be real.
-/
import Idealize.ShloMosaic.PureOps.Ideal
import Idealize.ShloMosaic.PureOps.Ideal.Laws

noncomputable section

open scoped BigOperators

namespace Cert.Softmax

open Idealize.ShloMosaic

/-- The word of −∞ is the bottom of the extended reals. -/
theorem negInf_eq : Ideal.ofBits .f32 0xFF800000#32 = (⊥ : EReal) := by
  simp [Ideal.ofBits, Ideal.ieee]

/-- The word of 1.0 is the extended real 1. -/
theorem one_eq : Ideal.ofBits .f32 0x3F800000#32 = (1 : EReal) :=
  IdealRules.sign_bit.ideal_onePat .f32

/-- A finite sum of real numbers, read in the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- 1 / Z for the logits `a`: the reciprocal of the sum of exp (a_c − max a). -/
def invPart (a : Fin 11 → EReal) : EReal :=
  Ideal.div 1 (∑ k, Ideal.exp (a k - Finset.univ.sup a))

/-- The maximum taken as a running maximum from the word of −∞ through the eleven logits in order. -/
def runMax (a : Fin 11 → EReal) : EReal :=
  max (max (max (max (max (max (max (max (max (max (max (Ideal.ofBits .f32 0xFF800000#32) (a 0)) (a 1)) (a 2)) (a 3)) (a 4)) (a 5)) (a 6)) (a 7)) (a 8)) (a 9)) (a 10)

/-- The partition sum accumulated left to right from the word of 0. -/
def runSum (a : Fin 11 → EReal) : EReal :=
  Ideal.ofBits .f32 0x00000000#32 + Ideal.exp (a 0 - runMax a) + Ideal.exp (a 1 - runMax a) + Ideal.exp (a 2 - runMax a)
    + Ideal.exp (a 3 - runMax a) + Ideal.exp (a 4 - runMax a) + Ideal.exp (a 5 - runMax a) + Ideal.exp (a 6 - runMax a)
    + Ideal.exp (a 7 - runMax a) + Ideal.exp (a 8 - runMax a) + Ideal.exp (a 9 - runMax a) + Ideal.exp (a 10 - runMax a)

/-- The quotient of the word of 1 by that sum: what the kernel takes for the largest probability. -/
def runPeak (a : Fin 11 → EReal) : EReal :=
  Ideal.div (Ideal.ofBits .f32 0x3F800000#32) (runSum a)

/-- The maximum as the reference takes it: the word of −∞ against the fold of max from that word over the classes. -/
def foldMax (a : Fin 11 → EReal) : EReal :=
  max (Ideal.ofBits .f32 0xFF800000#32) (Finset.univ.fold max (Ideal.ofBits .f32 0xFF800000#32) a)

/-- The partition sum as the reference takes it: the word of 0 plus the sum over the classes. -/
def foldSum (a : Fin 11 → EReal) : EReal :=
  Ideal.ofBits .f32 0x00000000#32 + ∑ k, Ideal.exp (a k - foldMax a)

/-- The largest of the eleven probabilities, a fold of max from the word of −∞. -/
def foldPeak (a : Fin 11 → EReal) : EReal :=
  Finset.univ.fold max (Ideal.ofBits .f32 0xFF800000#32) fun k => Ideal.div (Ideal.exp (a k - foldMax a)) (foldSum a)

/-- A fold of max from the bottom element is the supremum. -/
theorem fold_max_bot {ι : Type*} (s : Finset ι) (f : ι → EReal) : s.fold max ⊥ f = s.sup f := rfl

/-- A sum over the eleven classes written out left to right. -/
theorem sum_eleven (f : Fin 11 → EReal) :
    ∑ k, f k = f 0 + f 1 + f 2 + f 3 + f 4 + f 5 + f 6 + f 7 + f 8 + f 9 + f 10 := by
  simp only [Fin.sum_univ_castSucc, Fin.sum_univ_zero, zero_add]
  rfl

/-- The running maximum is the supremum over the classes. -/
theorem runMax_eq (a : Fin 11 → EReal) : runMax a = Finset.univ.sup a := by
  unfold runMax
  rw [negInf_eq]
  apply le_antisymm
  · -- every logit lies below the supremum, hence so does each running maximum
    have h : ∀ k, a k ≤ Finset.univ.sup a := fun k => Finset.le_sup (Finset.mem_univ k)
    exact max_le (max_le (max_le (max_le (max_le (max_le (max_le (max_le (max_le (max_le (max_le bot_le
      (h 0)) (h 1)) (h 2)) (h 3)) (h 4)) (h 5)) (h 6)) (h 7)) (h 8)) (h 9)) (h 10)
  · -- every logit occurs in the running maximum
    refine Finset.sup_le fun k _ => ?_
    fin_cases k <;> simp [le_max_iff]

/-- The left-to-right partition sum is the sum over the classes. -/
theorem runSum_eq (a : Fin 11 → EReal) : runSum a = ∑ k, Ideal.exp (a k - runMax a) := by
  rw [sum_eleven fun k => Ideal.exp (a k - runMax a)]
  unfold runSum
  rw [Ideal.ofBits_zero_f32, zero_add]

/-- The kernel's quotient is 1 / Z, for any logits. -/
theorem runPeak_eq (a : Fin 11 → EReal) : runPeak a = invPart a := by
  unfold runPeak invPart
  rw [one_eq, runSum_eq]
  simp only [runMax_eq]

/-- The reference's maximum is the supremum over the classes. -/
theorem foldMax_eq (a : Fin 11 → EReal) : foldMax a = Finset.univ.sup a := by
  unfold foldMax
  rw [negInf_eq, fold_max_bot, max_eq_right bot_le]

/-- The reference's partition sum is the sum over the classes of exp (a_c − max a). -/
theorem foldSum_eq (a : Fin 11 → EReal) : foldSum a = ∑ k, Ideal.exp (a k - Finset.univ.sup a) := by
  unfold foldSum
  rw [Ideal.ofBits_zero_f32, zero_add, foldMax_eq]

/-- The reference's largest probability is the supremum of the eleven quotients. -/
theorem foldPeak_eq_sup (a : Fin 11 → EReal) :
    foldPeak a = Finset.univ.sup fun k =>
      Ideal.div (Ideal.exp (a k - Finset.univ.sup a)) (∑ j, Ideal.exp (a j - Finset.univ.sup a)) := by
  unfold foldPeak
  rw [negInf_eq, fold_max_bot, foldMax_eq, foldSum_eq]

/-- The reference's largest probability is 1 / Z when the logits are real numbers. -/
theorem foldPeak_eq (a : Fin 11 → EReal) (ha : ∀ k, ∃ r : ℝ, a k = (r : EReal)) : foldPeak a = invPart a := by
  choose r hr using ha
  obtain rfl : a = fun k => (r k : EReal) := funext hr
  -- a class k₀ where the real logits are largest
  obtain ⟨k₀, -, hk₀⟩ := Finset.exists_max_image Finset.univ r Finset.univ_nonempty
  have hle : ∀ k, r k ≤ r k₀ := fun k => hk₀ k (Finset.mem_univ k)
  -- the supremum of the logits is the logit at k₀
  have hM : Finset.univ.sup (fun k => (r k : EReal)) = (r k₀ : EReal) :=
    le_antisymm (Finset.sup_le fun k _ => EReal.coe_le_coe_iff.2 (hle k))
      (Finset.le_sup (f := fun k => (r k : EReal)) (Finset.mem_univ k₀))
  -- every exponential is the real exponential of a real difference
  have he : ∀ k, Ideal.exp ((r k : EReal) - (r k₀ : EReal)) = ((Real.exp (r k - r k₀) : ℝ) : EReal) := fun k => by
    rw [← EReal.coe_sub, Ideal.exp_coe]
  -- the partition sum is a positive real
  have hZ : (0 : ℝ) < ∑ k, Real.exp (r k - r k₀) :=
    Finset.sum_pos (fun k _ => Real.exp_pos _) Finset.univ_nonempty
  rw [foldPeak_eq_sup, invPart, hM]
  simp only [he]
  rw [coe_sum]
  generalize hZdef : (∑ k, Real.exp (r k - r k₀)) = Z at hZ ⊢
  have hinv : (0 : ℝ) ≤ 1 / Z := (one_div_pos.2 hZ).le
  rw [Ideal.div_coe hZ.ne' 1, one_mul]
  simp only [Ideal.div_coe hZ.ne', ← EReal.coe_mul]
  apply le_antisymm
  · -- each exponential is at most 1, so each quotient is at most 1 / Z
    refine Finset.sup_le fun k _ => EReal.coe_le_coe_iff.2 ?_
    exact mul_le_of_le_one_left hinv (Real.exp_le_one_iff.2 (sub_nonpos.2 (hle k)))
  · -- at k₀ the exponential is 1 and the quotient is 1 / Z
    refine le_trans (le_of_eq ?_)
      (Finset.le_sup (f := fun k => ((Real.exp (r k - r k₀) * (1 / Z) : ℝ) : EReal)) (Finset.mem_univ k₀))
    rw [sub_self, Real.exp_zero, one_mul]

end Cert.Softmax

end
-- ==== Proof.Spec.lean ====
/-
  The loss as one function of the three arrays.

  For batch row n, class c and pixel (h, w) the logit is x² + c² − 2·(x·c)_{hw}: the entries' squares and the (h, w)
  entry of the matrix product of the class's two 384 × 384 slices. A pixel contributes 1 / Z of its eleven logits
  (Softmax.lean) times its label, clipped to the two stated bounds; the loss is the sum of the contributions over
  all rows and pixels, divided by their number. The leading extent N is a parameter: 32 for the whole arrays, 1 for
  the slices a single row's computation sees, and a pixel's contribution depends only on the entries of its own row.
-/
import Idealize.ShloMosaic.PureOps.Ideal
import Idealize.ShloMosaic.Lib.ValueIdx
import proofs.«131533_j1099511628281_1_alg».proof.Proof.Softmax

noncomputable section

open scoped BigOperators

namespace Cert.Spec

open Idealize.ShloMosaic Idealize.ShloMosaic.ValueIdx

variable {N : Nat}

/-- The logit of class `c` at pixel (h, w) of row `n`. -/
def logit (X C : (⟨4, ![N, 11, 384, 384]⟩ : Shape).Idx → EReal) (n : Fin N) (h w : Fin 384) (c : Fin 11) : EReal :=
  (X (ix4 n c h w) * X (ix4 n c h w) + C (ix4 n c h w) * C (ix4 n c h w))
    - Ideal.ofBits .f32 0x40000000#32 * ∑ k : Fin 384, X (ix4 n c h k) * C (ix4 n c k w)

/-- A pixel's contribution: 1 / Z of its logits times its label, clipped. -/
def pixel (X C : (⟨4, ![N, 11, 384, 384]⟩ : Shape).Idx → EReal) (L : (⟨3, ![N, 384, 384]⟩ : Shape).Idx → EReal)
    (n : Fin N) (h w : Fin 384) : EReal :=
  min (Ideal.ofBits .f32 0x5368D4A5#32)
    (max (Ideal.ofBits .f32 0x2B8CBCCC#32) (Softmax.invPart (logit X C n h w) * L (ix3 n h w)))

/-- The loss: the contributions summed over rows and pixels, over their number. -/
def loss (X C : (⟨4, ![32, 11, 384, 384]⟩ : Shape).Idx → EReal) (L : (⟨3, ![32, 384, 384]⟩ : Shape).Idx → EReal) : EReal :=
  Ideal.div (∑ n : Fin 32, ∑ h : Fin 384, ∑ w : Fin 384, pixel X C L n h w) (Ideal.ofBits .f32 0x4A900000#32)

/-- A pixel's contribution depends only on the entries of its own row. -/
theorem pixel_congr {N' : Nat} (X C : (⟨4, ![N, 11, 384, 384]⟩ : Shape).Idx → EReal) (L : (⟨3, ![N, 384, 384]⟩ : Shape).Idx → EReal)
    (X' C' : (⟨4, ![N', 11, 384, 384]⟩ : Shape).Idx → EReal) (L' : (⟨3, ![N', 384, 384]⟩ : Shape).Idx → EReal)
    (n : Fin N) (n' : Fin N')
    (hX : ∀ c a b, X (ix4 n c a b) = X' (ix4 n' c a b)) (hC : ∀ c a b, C (ix4 n c a b) = C' (ix4 n' c a b))
    (hL : ∀ a b, L (ix3 n a b) = L' (ix3 n' a b)) (h w : Fin 384) :
    pixel X C L n h w = pixel X' C' L' n' h w := by
  unfold pixel
  have e : logit X C n h w = logit X' C' n' h w := by
    funext c
    unfold logit
    simp only [hX, hC]
  rw [e, hL]

end Cert.Spec

end
-- ==== Proof.LogitReal.lean ====
/-
  Real entries give real logits: squares, products and a finite sum of real numbers are real, and so is their
  combination with the word of 2.0.
-/
import proofs.«131533_j1099511628281_1_alg».proof.Proof.Spec

noncomputable section

open scoped BigOperators

namespace Cert.Spec

open Idealize.ShloMosaic Idealize.ShloMosaic.ValueIdx

variable {N : Nat}

/-- The word of 2.0 is a real number. -/
theorem two_real : ∃ r : ℝ, Ideal.ofBits .f32 0x40000000#32 = (r : EReal) := by
  -- the exponent field is neither all ones nor zero, so the word denotes a normal real number
  simp [Ideal.ofBits, Ideal.ieee]
  exact ⟨_, rfl⟩

/-- Real entries give real logits. -/
theorem logit_real (X C : (⟨4, ![N, 11, 384, 384]⟩ : Shape).Idx → EReal)
    (hX : ∀ i, ∃ r : ℝ, X i = (r : EReal)) (hC : ∀ i, ∃ r : ℝ, C i = (r : EReal)) (n : Fin N) (h w : Fin 384) (c : Fin 11) :
    ∃ r : ℝ, logit X C n h w c = (r : EReal) := by
  choose x hx using hX
  choose y hy using hC
  obtain ⟨t, ht⟩ := two_real
  unfold logit
  -- every entry and the word of 2.0 are real; products, the finite sum, the sum and the difference of reals are real
  simp only [hx, hy, ht]
  simp only [← EReal.coe_mul, Softmax.coe_sum, ← EReal.coe_add, ← EReal.coe_sub]
  exact ⟨_, rfl⟩

end Cert.Spec

end
-- ==== Proof.LibIdx.lean ====
/-
  A sum over a rank-3 index set is the triple sum over its coordinates.
-/
import Idealize.ShloMosaic.Lib.ValueIdx

noncomputable section

open scoped BigOperators

namespace Cert.LibIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdx

end
-- ==== Proof.RefValue.lean ====
/-
  The reference program's result is the specification's loss.

  The reference computes, entry by entry, the logit x² + c² − 2·(x·c); over the eleven classes of a pixel it takes the
  maximum M from −∞, the exponentials exp (logit − M), their sum Z from 0, the eleven quotients, and the largest quotient
  from −∞; it multiplies by the pixel's label, clips, sums over all rows and pixels from 0 and divides by their number.
  Read at an index each stage is the matching piece of the specification: the logit at an entry, then at a pixel the
  fold of max, the partition sum and the largest probability, which for real logits is 1 / Z; the clipped product is
  the pixel's contribution, and the total over the rank-3 index set is the triple sum over its coordinates.
-/
import proofs.«131533_j1099511628281_1_alg».proof.Proof.Gen.ReferenceIdeal.Read
import proofs.«131533_j1099511628281_1_alg».proof.Proof.Spec
import proofs.«131533_j1099511628281_1_alg».proof.Proof.LogitReal
import proofs.«131533_j1099511628281_1_alg».proof.Proof.LibIdx
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.RefValue

open Idealize.ShloMosaic Idealize.ShloMosaic.ValueIdx Cert.ReferenceIdeal Cert.ReferenceIdeal.Gen Cert.ReferenceIdeal.Read

/-! ## Indices -/

/-- The left operand's index of the product at entry (n, c, h, w), contracted coordinate k, is (n, c, h, k). -/
theorem lidx_at (n : Fin 32) (c : Fin 11) (h w k : Fin 384) : lidx_main_v3 (ix4 n c h w) k = ix4 n c h k := by
  funext a
  match a with
  | ⟨0, _⟩ => rfl
  | ⟨1, _⟩ => rfl
  | ⟨2, _⟩ => rfl
  | ⟨3, _⟩ => rfl

/-- The right operand's index of the product at entry (n, c, h, w), contracted coordinate k, is (n, c, k, w). -/
theorem ridx_at (n : Fin 32) (c : Fin 11) (h w k : Fin 384) : ridx_main_v3 (ix4 n c h w) k = ix4 n c k w := by
  funext a
  match a with
  | ⟨0, _⟩ => rfl
  | ⟨1, _⟩ => rfl
  | ⟨2, _⟩ => rfl
  | ⟨3, _⟩ => rfl

/-! ## The logit at an entry -/

/-- Entry (n, c, h, w) of the reference's logits is the specification's logit of class c at pixel (h, w) of row n. -/
theorem logit_at (x0 x1 : (⟨S32x11x384x384, .f32⟩ : BufTy).Contents (Elt Ideal)) (n : Fin 32) (c : Fin 11) (h w : Fin 384) :
    val_main_v6 (F := Ideal) x0 x1 (ix4 n c h w) = Cert.Spec.logit x0 x1 n h w c := by
  rw [val_main_v6_apply, val_main_v2_apply, val_main_v0_apply, val_main_v1_apply, val_main_v5_apply, val_main_v4_apply,
    val_main_cst_apply, val_main_v3_apply]
  simp only [lidx_at, ridx_at]
  rfl

/-! ## A maximum over the classes at a pixel -/

/-- The two shapes' reduction fact in the form that carries the inserted coordinate. -/
theorem reduces_d1 : S32x11x384x384.Reduces [1] S32x384x384 := by decide

/-- Pixel (n, h, w) with class k put back on the class axis is entry (n, k, h, w). -/
theorem lift_at (n : Fin 32) (h w : Fin 384) (k : Fin (S32x11x384x384.size 1)) :
    reduces_d1.lift (ix3 n h w) k = ix4 n (⟨k.val, k.isLt⟩ : Fin 11) h w := by
  funext a
  apply Fin.ext
  match a with
  | ⟨0, _⟩ => rfl
  | ⟨1, _⟩ => rfl
  | ⟨2, _⟩ => rfl
  | ⟨3, _⟩ => rfl

/-- From an initial value the host's reduce with a maximum body over the class axis is, at pixel (n, h, w), the fold of
    max from that value over the pixel's eleven entries. -/
theorem reduceMax_at (y : (⟨S32x11x384x384, .f32⟩ : BufTy).Contents (Elt Ideal)) (init : (⟨S_, .f32⟩ : BufTy).Contents (Elt Ideal))
    (n : Fin 32) (h w : Fin 384) :
    Host.reduce (FloatOps.maximumf (F := Ideal) (φ := .f32)) y init reducesTo_S32x11x384x384_S32x384x384_d1 h_S_ (ix3 n h w)
      = Finset.univ.fold max (init (Shape.Idx.first h_S_)) fun k : Fin 11 => y (ix4 n k h w) := by
  rw [Host.reduce_eq_fold_single (FloatOps.maximumf (F := Ideal) (φ := .f32)) y init reducesTo_S32x11x384x384_S32x384x384_d1 reduces_d1 h_S_]
  have hf : (y ∘ reduces_d1.lift (ix3 n h w)) = fun k : Fin 11 => y (ix4 n k h w) :=
    funext fun k => congrArg y (lift_at n h w k)
  exact congrArg (fun f => Finset.fold max (init (Shape.Idx.first h_S_)) f (Finset.univ : Finset (Fin 11))) hf

/-! ## The stages at a pixel -/

section Pixel

variable (x0 x1 : (⟨S32x11x384x384, .f32⟩ : BufTy).Contents (Elt Ideal)) (n : Fin 32) (h w : Fin 384)

/-- The reference's maximum of a pixel's logits: −∞ against the fold of max from −∞ over the classes. -/
theorem max_at : val_main_v9 (F := Ideal) x0 x1 (ix3 n h w) = Cert.Softmax.foldMax (Cert.Spec.logit x0 x1 n h w) := by
  rw [val_main_v9_apply, val_main_v8_apply, val_main_cst_1_apply]
  unfold val_main_v7
  rw [reduceMax_at, val_main_cst_0_apply]
  simp only [logit_at]
  rfl

/-- Through the two broadcasts of the maximum, entry (n, c, h, w) reads pixel (n, h, w). -/
theorem bidx_max_at (c : Fin 11) : idx_main_v10 (idx_main_v11 (ix4 n c h w)) = ix3 n h w := by
  funext a
  match a with
  | ⟨0, _⟩ => rfl
  | ⟨1, _⟩ => rfl
  | ⟨2, _⟩ => rfl

/-- Through the two broadcasts of the partition sum, entry (n, c, h, w) reads pixel (n, h, w). -/
theorem bidx_sum_at (c : Fin 11) : idx_main_v15 (idx_main_v16 (ix4 n c h w)) = ix3 n h w := by
  funext a
  match a with
  | ⟨0, _⟩ => rfl
  | ⟨1, _⟩ => rfl
  | ⟨2, _⟩ => rfl

/-- The entry the partition sum at pixel (n, h, w) reads for class k is (n, k, h, w). -/
theorem sidx_at (k : Fin 11) : idx_main_v14 (ix3 n h w) k = ix4 n k h w := by
  funext a
  match a with
  | ⟨0, _⟩ => rfl
  | ⟨1, _⟩ => rfl
  | ⟨2, _⟩ => rfl
  | ⟨3, _⟩ => rfl

/-- Entry (n, c, h, w) of the exponentials is exp (logit − M), M the pixel's maximum. -/
theorem exp_at (c : Fin 11) : val_main_v13 (F := Ideal) x0 x1 (ix4 n c h w)
    = Ideal.exp (Cert.Spec.logit x0 x1 n h w c - Cert.Softmax.foldMax (Cert.Spec.logit x0 x1 n h w)) := by
  rw [val_main_v13_apply, val_main_v12_apply, val_main_v11_apply, val_main_v10_apply, bidx_max_at, max_at, logit_at]
  rfl

/-- The reference's partition sum at a pixel: 0 plus the sum of the exponentials over the classes. -/
theorem sum_at : val_main_v14 (F := Ideal) x0 x1 (ix3 n h w) = Cert.Softmax.foldSum (Cert.Spec.logit x0 x1 n h w) := by
  rw [val_main_v14_apply, val_main_cst_2_apply]
  simp only [sidx_at, exp_at]
  rfl

/-- Entry (n, c, h, w) of the probabilities is the class's exponential over the pixel's partition sum. -/
theorem quot_at (c : Fin 11) : val_main_v17 (F := Ideal) x0 x1 (ix4 n c h w)
    = Ideal.div (Ideal.exp (Cert.Spec.logit x0 x1 n h w c - Cert.Softmax.foldMax (Cert.Spec.logit x0 x1 n h w)))
        (Cert.Softmax.foldSum (Cert.Spec.logit x0 x1 n h w)) := by
  rw [val_main_v17_apply, val_main_v16_apply, val_main_v15_apply, bidx_sum_at, sum_at, exp_at]
  rfl

/-- The reference's largest probability at a pixel: the fold of max from −∞ over the eleven quotients. -/
theorem peak_at : val_main_v18 (F := Ideal) x0 x1 (ix3 n h w) = Cert.Softmax.foldPeak (Cert.Spec.logit x0 x1 n h w) := by
  unfold val_main_v18
  rw [reduceMax_at, val_main_cst_3_apply]
  simp only [quot_at]
  rfl

/-- For real inputs the reference's clipped product at a pixel is the specification's contribution of that pixel:
    the largest probability is 1 / Z because the logits are real. -/
theorem pixel_at (x2 : (⟨S32x384x384, .i32⟩ : BufTy).Contents (Elt Ideal))
    (h0 : ∀ i, ∃ r : ℝ, x0 i = (r : EReal)) (h1 : ∀ i, ∃ r : ℝ, x1 i = (r : EReal)) :
    val_main_v21 (F := Ideal) x0 x1 x2 (ix3 n h w) = Cert.Spec.pixel x0 x1 (sitofp (F := Ideal) .f32 x2) n h w := by
  rw [val_main_v21_apply, val_main_call0_v4_apply, val_main_call0_v3_apply, val_main_cst_5_apply, val_main_call0_v2_apply,
    val_main_call0_v1_apply, val_main_call0_v0_apply, val_main_cst_4_apply, val_main_v20_apply, val_main_v19_apply, peak_at,
    Cert.Softmax.foldPeak_eq _ (Cert.Spec.logit_real x0 x1 h0 h1 n h w)]
  rfl

end Pixel

/-! ## The total -/

open Idealize.ShloMosaic Idealize.ShloMosaic.ValueIdx Cert.ReferenceIdeal Cert.ReferenceIdeal.Gen in
/-- For real inputs the reference's result is the specification's loss. -/
theorem ref_value (x0 x1 : (⟨S32x11x384x384, .f32⟩ : BufTy).Contents (Elt Ideal)) (x2 : (⟨S32x384x384, .i32⟩ : BufTy).Contents (Elt Ideal))
    (h0 : ∀ i, ∃ r : ℝ, x0 i = (r : EReal)) (h1 : ∀ i, ∃ r : ℝ, x1 i = (r : EReal)) :
    Cert.ReferenceIdeal.Read.val_main_v23 (F := Ideal) x0 x1 x2 = fun _ => Cert.Spec.loss x0 x1 (sitofp (F := Ideal) .f32 x2) := by
  funext i
  rw [val_main_v23_apply, val_main_v22_apply, val_main_cst_7_apply, val_main_cst_6_apply]
  have hs : ∑ j : S32x384x384.Idx, val_main_v21 (F := Ideal) x0 x1 x2 j
      = ∑ n : Fin 32, ∑ h : Fin 384, ∑ w : Fin 384, Cert.Spec.pixel x0 x1 (sitofp (F := Ideal) .f32 x2) n h w := by
    refine (Cert.LibIdx.sum_idx3 (n0 := 32) (n1 := 384) (n2 := 384) _).trans ?_
    refine Finset.sum_congr rfl fun n _ => Finset.sum_congr rfl fun h _ => Finset.sum_congr rfl fun w _ => ?_
    exact pixel_at x0 x1 n h w x2 h0 h1
  rw [hs]
  show Ideal.div (Ideal.ofBits .f32 0x00000000#32 + _) (Ideal.ofBits .f32 0x4A900000#32) = _
  rw [Ideal.ofBits_zero_f32, zero_add]
  rfl

end Cert.RefValue

end
-- ==== Proof.KernelLogit.lean ====
/-
  One class's logits at a pixel.

  The row's body loads class c's 1 × 1 × 384 × 384 slice of its x block and of its centers block, views each as a
  384 × 384 matrix, and forms x² + c² − 2·(x·c), the product a matrix product into a zero accumulator of the two
  matrices narrowed to sixteen bits. Over the extended reals the narrowing is the identity, the matrix product at
  (h, w) is Σ_k x(h, k)·c(k, w), and the matrix entry (a, b) of class c's slice is the block's entry (0, c, a, b):
  so the logit at pixel (h, w) is the specification's, read on a block of one row.
-/
import proofs.«131533_j1099511628281_1_alg».proof.Proof.Gen.KernelIdeal
import proofs.«131533_j1099511628281_1_alg».proof.Proof.Spec
import Idealize.ShloMosaic.Lib.Pipeline.Value
import Idealize.ShloMosaic.Lib.ValueIdx
import Idealize.ShloMosaic.PureOps.Ideal.Laws

noncomputable section

open scoped BigOperators

namespace Cert.KernelValue

open Idealize.ShloMosaic Idealize.ShloMosaic.ValueIdx Cert.KernelIdeal Cert.KernelIdeal.Gen

variable {F : FTy → Type} [FloatOps F]

/-- One class's logits over the 384 × 384 pixels, from the class's slice of x and of the centers. -/
def classLogits (v1 v3 : Vec F S1x1x384x384 .f32) : FVec F S384x384 .f32 :=
  subf (addf (mulf (shapeCast S384x384 v1 shapeCasts_S1x1x384x384_S384x384) (shapeCast S384x384 v1 shapeCasts_S1x1x384x384_S384x384)) (mulf (shapeCast S384x384 v3 shapeCasts_S1x1x384x384_S384x384) (shapeCast S384x384 v3 shapeCasts_S1x1x384x384_S384x384)))
    (mulf (broadcast S384x384 (Scalar.ofBits .f32 0x40000000#32))
      (matmul dot_S384x384_S384x384_S384x384_1_0_0_1_n_n none (truncf .bf16 (shapeCast S384x384 v1 shapeCasts_S1x1x384x384_S384x384) bitsLt_bf16_f32)
        (truncf .bf16 (shapeCast S384x384 v3 shapeCasts_S1x1x384x384_S384x384) bitsLt_bf16_f32) (constant S384x384 .f32 0x00000000#32)))

/-- Class c's slice of a block, viewed as a matrix, read at (a, b): the block's entry (0, c, a, b). -/
theorem slice_apply (x : Vec Ideal S1x11x384x384 .f32) (c : Fin 11)
    (inb : ∀ a, (![0, c.val, 0, 0] : Fin 4 → Nat) a + S1x1x384x384.size a ≤ S1x11x384x384.size a) (a b : Fin 384) :
    shapeCast S384x384 (View.ld x (Rect.unit (s := S1x11x384x384) ![0, c.val, 0, 0] ![1, 1, 384, 384] inb))
        shapeCasts_S1x1x384x384_S384x384 (ix2 a b)
      = x (ix4 (0 : Fin 1) c a b) := by
  rw [shapeCast_apply _ shapeCasts_S1x1x384x384_S384x384 (ix2 a b) (ix4 (0 : Fin 1) (0 : Fin 1) a b) (by
    rw [Shape.rowMajor_val_two, Shape.rowMajor_val_four]
    show ((0 * 1 + 0) * 384 + a.val) * 384 + b.val = a.val * 384 + b.val
    omega)]
  show x ((Rect.unit (s := S1x11x384x384) ![0, c.val, 0, 0] ![1, 1, 384, 384] inb).emb (ix4 (0 : Fin 1) (0 : Fin 1) a b)) = _
  refine congrArg x (funext fun e => Fin.ext ?_)
  match e with
  | ⟨0, _⟩ => rfl
  | ⟨1, _⟩ => show c.val + 1 * 0 = c.val; omega
  | ⟨2, _⟩ => show 0 + 1 * a.val = a.val; omega
  | ⟨3, _⟩ => show 0 + 1 * b.val = b.val; omega

/-! The matrix product's operand indices, axis by axis: the left operand is read at (row, k), the right at (k, column). -/

theorem lhs_dot_0 (i : S384x384.Idx) (q : dot_S384x384_S384x384_S384x384_1_0_0_1_n_n.contr.Idx) : (dot_S384x384_S384x384_S384x384_1_0_0_1_n_n.lhsIdx i q 0).val = (i 0).val := by
  unfold DotDims.lhsIdx
  rw [dif_neg (show ¬(0 : Fin S384x384.rank) ∈ dot_S384x384_S384x384_S384x384_1_0_0_1_n_n.lhsBatch by decide), dif_pos (show (0 : Fin S384x384.rank) ∈ dot_S384x384_S384x384_S384x384_1_0_0_1_n_n.lhsNonContracting by decide)]
  rfl
theorem lhs_dot_1 (i : S384x384.Idx) (q : dot_S384x384_S384x384_S384x384_1_0_0_1_n_n.contr.Idx) : (dot_S384x384_S384x384_S384x384_1_0_0_1_n_n.lhsIdx i q 1).val = (q ⟨0, by decide⟩).val :=
  dot_S384x384_S384x384_S384x384_1_0_0_1_n_n.lhsIdx_val_of_single rfl i q
theorem rhs_dot_0 (i : S384x384.Idx) (q : dot_S384x384_S384x384_S384x384_1_0_0_1_n_n.contr.Idx) : (dot_S384x384_S384x384_S384x384_1_0_0_1_n_n.rhsIdx i q 0).val = (q ⟨0, by decide⟩).val :=
  dot_S384x384_S384x384_S384x384_1_0_0_1_n_n.rhsIdx_val_of_single rfl i q
theorem rhs_dot_1 (i : S384x384.Idx) (q : dot_S384x384_S384x384_S384x384_1_0_0_1_n_n.contr.Idx) : (dot_S384x384_S384x384_S384x384_1_0_0_1_n_n.rhsIdx i q 1).val = (i 1).val := by
  unfold DotDims.rhsIdx
  rw [dif_neg (show ¬(1 : Fin S384x384.rank) ∈ dot_S384x384_S384x384_S384x384_1_0_0_1_n_n.rhsBatch by decide), dif_pos (show (1 : Fin S384x384.rank) ∈ dot_S384x384_S384x384_S384x384_1_0_0_1_n_n.rhsNonContracting by decide)]
  rfl

/-- The matrix product into a zero accumulator at (h, w) is Σ_k A(h, k)·B(k, w). -/
theorem dot_apply (A B : FVec Ideal S384x384 .bf16) (h w : Fin 384) :
    matmul dot_S384x384_S384x384_S384x384_1_0_0_1_n_n none A B (constant S384x384 .f32 0x00000000#32) (ix2 h w) = ∑ k : Fin 384, A (ix2 h k) * B (ix2 k w) := by
  simp only [matmul]
  rw [Ideal.matmul_constant_zero_apply, ← Equiv.sum_comp (ValueIdx.contrEquiv1 dot_S384x384_S384x384_S384x384_1_0_0_1_n_n 384 rfl rfl).symm]
  refine Finset.sum_congr rfl fun k _ => ?_
  have hk := ValueIdx.contrEquiv1_symm_val dot_S384x384_S384x384_S384x384_1_0_0_1_n_n 384 rfl rfl k
  have el : dot_S384x384_S384x384_S384x384_1_0_0_1_n_n.lhsIdx (ix2 h w) ((ValueIdx.contrEquiv1 dot_S384x384_S384x384_S384x384_1_0_0_1_n_n 384 rfl rfl).symm k) = ix2 h k := funext fun a => Fin.ext (by
    match a with
    | ⟨0, _⟩ => exact lhs_dot_0 _ _
    | ⟨1, _⟩ => exact (lhs_dot_1 _ _).trans hk)
  have er : dot_S384x384_S384x384_S384x384_1_0_0_1_n_n.rhsIdx (ix2 h w) ((ValueIdx.contrEquiv1 dot_S384x384_S384x384_S384x384_1_0_0_1_n_n 384 rfl rfl).symm k) = ix2 k w := funext fun a => Fin.ext (by
    match a with
    | ⟨0, _⟩ => exact (rhs_dot_0 _ _).trans hk
    | ⟨1, _⟩ => exact rhs_dot_1 _ _)
  rw [el, er]

/-- Class c's logits at pixel (h, w), from the row's two blocks: the specification's logit on a block of one row. -/
theorem classLogits_apply (x0 x1 : Vec Ideal S1x11x384x384 .f32) (c : Fin 11)
    (inb : ∀ a, (![0, c.val, 0, 0] : Fin 4 → Nat) a + S1x1x384x384.size a ≤ S1x11x384x384.size a) (h w : Fin 384) :
    classLogits (View.ld x0 (Rect.unit (s := S1x11x384x384) ![0, c.val, 0, 0] S1x1x384x384.size inb))
        (View.ld x1 (Rect.unit (s := S1x11x384x384) ![0, c.val, 0, 0] S1x1x384x384.size inb)) (ix2 h w)
      = Spec.logit x0 x1 (0 : Fin 1) h w c := by
  unfold classLogits Spec.logit
  simp only [subf_apply, addf_apply, mulf_apply, broadcast_apply, dot_apply, truncf_apply]
  simp only [slice_apply x0 c inb, slice_apply x1 c inb]
  rfl

end Cert.KernelValue

end
-- ==== Proof.KernelBlock.lean ====
/-
  What one batch row's computation leaves in its output block.

  From the eleven classes' logit arrays the row's body takes the running maximum M from −∞, the sum s of
  exp (logit − M) from 0, the quotient 1 / s, multiplies by the labels, clips, sums over all pixels and fills the
  8 × 128 output block with that one number. Read over the extended reals, entry by entry, the block holds at
  every index the sum over the row's pixels of the specification's clipped contribution, the row's three blocks
  taken as arrays of one row.
-/
import proofs.«131533_j1099511628281_1_alg».proof.Proof.Gen.KernelIdeal.Frame
import proofs.«131533_j1099511628281_1_alg».proof.Proof.KernelLogit
import proofs.«131533_j1099511628281_1_alg».proof.Proof.Spec
import proofs.«131533_j1099511628281_1_alg».proof.Proof.LibIdx
import Idealize.ShloMosaic.Lib.Pipeline.Value
import Idealize.ShloMosaic.Lib.ValueIdx
import Idealize.ShloMosaic.PureOps.Ideal.Laws

noncomputable section

open scoped BigOperators

namespace Cert.KernelValue

open Idealize.ShloMosaic Idealize.ShloMosaic.ValueIdx Cert.KernelIdeal Cert.KernelIdeal.Gen

variable {F : FTy → Type} [FloatOps F]

/-- The running maximum of the eleven classes' logits, pixel by pixel, from −∞. -/
def rowMax (r0 r1 r2 r3 r4 r5 r6 r7 r8 r9 r10 : FVec F S384x384 .f32) : FVec F S384x384 .f32 :=
  (maximumf (maximumf (maximumf (maximumf (maximumf (maximumf (maximumf (maximumf (maximumf (maximumf (maximumf (broadcast S384x384 (Scalar.ofBits .f32 0xFF800000#32)) r0) r1) r2) r3) r4) r5) r6) r7) r8) r9) r10)

/-- The sum of exp (logit − maximum) over the first ten classes, pixel by pixel, from 0. -/
def rowSum9 (r0 r1 r2 r3 r4 r5 r6 r7 r8 r9 r10 : FVec F S384x384 .f32) : FVec F S384x384 .f32 :=
  (addf (addf (addf (addf (addf (addf (addf (addf (addf (addf (broadcast S384x384 (Scalar.ofBits .f32 0x00000000#32)) (exp (subf r0 (rowMax r0 r1 r2 r3 r4 r5 r6 r7 r8 r9 r10)))) (exp (subf r1 (rowMax r0 r1 r2 r3 r4 r5 r6 r7 r8 r9 r10)))) (exp (subf r2 (rowMax r0 r1 r2 r3 r4 r5 r6 r7 r8 r9 r10)))) (exp (subf r3 (rowMax r0 r1 r2 r3 r4 r5 r6 r7 r8 r9 r10)))) (exp (subf r4 (rowMax r0 r1 r2 r3 r4 r5 r6 r7 r8 r9 r10)))) (exp (subf r5 (rowMax r0 r1 r2 r3 r4 r5 r6 r7 r8 r9 r10)))) (exp (subf r6 (rowMax r0 r1 r2 r3 r4 r5 r6 r7 r8 r9 r10)))) (exp (subf r7 (rowMax r0 r1 r2 r3 r4 r5 r6 r7 r8 r9 r10)))) (exp (subf r8 (rowMax r0 r1 r2 r3 r4 r5 r6 r7 r8 r9 r10)))) (exp (subf r9 (rowMax r0 r1 r2 r3 r4 r5 r6 r7 r8 r9 r10))))

/-- The row's clipped contributions as a 1 × 384 × 384 array, from the sum through the tenth class, the last class's
    logit less the maximum, and the labels. -/
def rowClipped (v185 v186 : FVec F S384x384 .f32) (v191 : Vec F S1x384x384 .f32) : FVec F S1x384x384 .f32 :=
  shapeCast S1x384x384
    (minimumf (broadcast S384x384 (Scalar.ofBits .f32 0x5368D4A5#32))
      (maximumf (broadcast S384x384 (Scalar.ofBits .f32 0x2B8CBCCC#32))
        (mulf (divf (broadcast S384x384 (Scalar.ofBits .f32 0x3F800000#32)) (addf v185 (exp v186)))
          (shapeCast S384x384 v191 shapeCasts_S1x384x384_S384x384))))
    shapeCasts_S384x384_S1x384x384

/-- The row's output block from its eleven classes' logits and its labels. -/
def rowOut (r0 r1 r2 r3 r4 r5 r6 r7 r8 r9 r10 : FVec F S384x384 .f32) (lab : Vec F S1x384x384 .f32) : FVec F S1x8x128 .f32 :=
  k0_pay1 (rowSum9 r0 r1 r2 r3 r4 r5 r6 r7 r8 r9 r10) (subf r10 (rowMax r0 r1 r2 r3 r4 r5 r6 r7 r8 r9 r10)) lab

/-- The body's stored value is that function of the eleven classes' logits: the printed pieces unfold to it. -/
theorem out0_3_eq (x0 x1 : Vec F S1x11x384x384 .f32) (x2 : Vec F S1x384x384 .f32) :
    out0_3 x0 x1 x2 = View.canon [⟨r0_12, rowOut
      (classLogits (View.ld x0 r0_0) (View.ld x1 r0_0))
      (classLogits (View.ld x0 r0_1) (View.ld x1 r0_1))
      (classLogits (View.ld x0 r0_2) (View.ld x1 r0_2))
      (classLogits (View.ld x0 r0_3) (View.ld x1 r0_3))
      (classLogits (View.ld x0 r0_4) (View.ld x1 r0_4))
      (classLogits (View.ld x0 r0_5) (View.ld x1 r0_5))
      (classLogits (View.ld x0 r0_6) (View.ld x1 r0_6))
      (classLogits (View.ld x0 r0_7) (View.ld x1 r0_7))
      (classLogits (View.ld x0 r0_8) (View.ld x1 r0_8))
      (classLogits (View.ld x0 r0_9) (View.ld x1 r0_9))
      (classLogits (View.ld x0 r0_10) (View.ld x1 r0_10))
      (View.ld x2 r0_11)⟩] := rfl

/-- The stored block is the sum of the clipped contributions over the row's pixels, splat over the block. -/
theorem k0_pay1_eq (v185 v186 : FVec F S384x384 .f32) (v191 : Vec F S1x384x384 .f32) :
    k0_pay1 v185 v186 v191
      = shapeCast S1x8x128 (broadcast S8x128 (extractAt ![0, 0, 0] (shapeCast S1x1x1
          (multiReduction .add [1, 2] S1 (rowClipped v185 v186 v191) 0x00000000#32 reduces_S1x384x384_S1 (.inl rfl) rfl)
          shapeCasts_S1_S1x1x1) inpos_S1x1x1_p0_0_0)) shapeCasts_S8x128_S1x8x128 := rfl

/-- At every index of the block: the total of the clipped contributions. -/
theorem k0_pay1_apply (v185 v186 : FVec Ideal S384x384 .f32) (v191 : Vec Ideal S1x384x384 .f32) (y : S1x8x128.Idx) :
    k0_pay1 v185 v186 v191 y = ∑ i : S1x384x384.Idx, rowClipped v185 v186 v191 i := by
  rw [k0_pay1_eq]
  exact Ideal.multiReduction_add_total (rowClipped v185 v186 v191) 0x00000000#32 reduces_S1x384x384_S1 (by decide) (.inl rfl) rfl _

/-- A clipped contribution at pixel (h, w): the quotient of 1 by the completed sum, times the label, between the two bounds. -/
theorem rowClipped_apply (v185 v186 : FVec Ideal S384x384 .f32) (v191 : Vec Ideal S1x384x384 .f32) (u : Fin 1) (h w : Fin 384) :
    rowClipped v185 v186 v191 (ix3 u h w)
      = min (Ideal.ofBits .f32 0x5368D4A5#32) (max (Ideal.ofBits .f32 0x2B8CBCCC#32)
          (Ideal.div (Ideal.ofBits .f32 0x3F800000#32) (v185 (ix2 h w) + Ideal.exp (v186 (ix2 h w))) * v191 (ix3 u h w))) := by
  have hu : u.val = 0 := by have := u.isLt; omega
  unfold rowClipped
  rw [shapeCast_apply _ shapeCasts_S384x384_S1x384x384 (ix3 u h w) (ix2 h w) (by
    rw [Shape.rowMajor_val_two, Shape.rowMajor_val_three]
    show h.val * 384 + w.val = (u.val * 384 + h.val) * 384 + w.val
    omega)]
  show min _ (max _ (Ideal.div _ _ * shapeCast S384x384 v191 shapeCasts_S1x384x384_S384x384 (ix2 h w))) = _
  rw [shapeCast_apply v191 shapeCasts_S1x384x384_S384x384 (ix2 h w) (ix3 u h w) (by
    rw [Shape.rowMajor_val_two, Shape.rowMajor_val_three]
    show (u.val * 384 + h.val) * 384 + w.val = h.val * 384 + w.val
    omega)]
  rfl

/-- The row's output block at every index: the sum over the pixels of the clipped 1 / s · label, the 1 / s taken as the
    kernel takes it from the eleven logits at the pixel. -/
theorem rowOut_apply (r0 r1 r2 r3 r4 r5 r6 r7 r8 r9 r10 : FVec Ideal S384x384 .f32) (lab : Vec Ideal S1x384x384 .f32) (y : S1x8x128.Idx) :
    rowOut r0 r1 r2 r3 r4 r5 r6 r7 r8 r9 r10 lab y
      = ∑ u : Fin 1, ∑ h : Fin 384, ∑ w : Fin 384,
          min (Ideal.ofBits .f32 0x5368D4A5#32) (max (Ideal.ofBits .f32 0x2B8CBCCC#32) (Softmax.runPeak ![r0 (ix2 h w), r1 (ix2 h w), r2 (ix2 h w), r3 (ix2 h w), r4 (ix2 h w), r5 (ix2 h w), r6 (ix2 h w), r7 (ix2 h w), r8 (ix2 h w), r9 (ix2 h w), r10 (ix2 h w)] * lab (ix3 u h w))) := by
  unfold rowOut
  rw [k0_pay1_apply]
  refine (LibIdx.sum_idx3 _).trans ?_
  refine Finset.sum_congr rfl fun u _ => Finset.sum_congr rfl fun h _ => Finset.sum_congr rfl fun w _ => ?_
  rw [rowClipped_apply]
  rfl

theorem hz3 : (![0, 0, 0] : Fin 3 → Nat) = fun _ => 0 := funext fun a => by fin_cases a <;> rfl

/-- The eleven classes' logits at a pixel, in class order, are the specification's logits of the row, its two blocks read
    as arrays of one row. -/
theorem logits_eq (x0 x1 : Vec Ideal S1x11x384x384 .f32) (h w : Fin 384) :
    (![classLogits (View.ld x0 r0_0) (View.ld x1 r0_0) (ix2 h w),
      classLogits (View.ld x0 r0_1) (View.ld x1 r0_1) (ix2 h w),
      classLogits (View.ld x0 r0_2) (View.ld x1 r0_2) (ix2 h w),
      classLogits (View.ld x0 r0_3) (View.ld x1 r0_3) (ix2 h w),
      classLogits (View.ld x0 r0_4) (View.ld x1 r0_4) (ix2 h w),
      classLogits (View.ld x0 r0_5) (View.ld x1 r0_5) (ix2 h w),
      classLogits (View.ld x0 r0_6) (View.ld x1 r0_6) (ix2 h w),
      classLogits (View.ld x0 r0_7) (View.ld x1 r0_7) (ix2 h w),
      classLogits (View.ld x0 r0_8) (View.ld x1 r0_8) (ix2 h w),
      classLogits (View.ld x0 r0_9) (View.ld x1 r0_9) (ix2 h w),
      classLogits (View.ld x0 r0_10) (View.ld x1 r0_10) (ix2 h w)] : Fin 11 → EReal)
      = Spec.logit x0 x1 (0 : Fin 1) h w := by
  funext k
  fin_cases k
  · exact classLogits_apply x0 x1 0 _ h w
  · exact classLogits_apply x0 x1 1 _ h w
  · exact classLogits_apply x0 x1 2 _ h w
  · exact classLogits_apply x0 x1 3 _ h w
  · exact classLogits_apply x0 x1 4 _ h w
  · exact classLogits_apply x0 x1 5 _ h w
  · exact classLogits_apply x0 x1 6 _ h w
  · exact classLogits_apply x0 x1 7 _ h w
  · exact classLogits_apply x0 x1 8 _ h w
  · exact classLogits_apply x0 x1 9 _ h w
  · exact classLogits_apply x0 x1 10 _ h w

/-- WHAT THE ROW'S BODY LEAVES, at every index of its output block: the sum over the row's pixels of the specification's
    contribution, the row's three blocks read as arrays of one row. The kernel's 1 / s is the specification's 1 / Z. -/
theorem out0_3_apply (x0 x1 : Vec Ideal S1x11x384x384 .f32) (x2 : Vec Ideal S1x384x384 .f32) (y : S1x8x128.Idx) :
    out0_3 x0 x1 x2 y = ∑ h : Fin 384, ∑ w : Fin 384, Spec.pixel x0 x1 x2 (0 : Fin 1) h w := by
  rw [out0_3_eq, View.canon_unit_zero hz3, rowOut_apply, Fin.sum_univ_one]
  refine Finset.sum_congr rfl fun h _ => Finset.sum_congr rfl fun w _ => ?_
  unfold Spec.pixel
  rw [logits_eq x0 x1 h w, Softmax.runPeak_eq, View.ld_unit_zero (S := S1x384x384) hz3]

end Cert.KernelValue

end
-- ==== Proof.KernelArray.lean ====
/-
  The output array after all 32 rows.

  Grid point t works on row t: its three input blocks are row t of x, of the centers and of the converted labels, and
  its output block is row t of the 32 × 8 × 128 output array. What the point writes back is the row's total — the sum
  over the row's pixels of the specification's contribution — at every entry of the block. The 32 blocks tile the
  array, so after the run the array holds, at (n, a, b), row n's total.
-/
import proofs.«131533_j1099511628281_1_alg».proof.Proof.Gen.KernelIdeal.Frame
import proofs.«131533_j1099511628281_1_alg».proof.Proof.KernelBlock
import proofs.«131533_j1099511628281_1_alg».proof.Proof.Spec
import Idealize.ShloMosaic.Lib.Pipeline.Value
import Idealize.ShloMosaic.Lib.ValueIdx

noncomputable section

open scoped BigOperators

namespace Cert.KernelValue

open Idealize.ShloMosaic Idealize.ShloMosaic.ValueIdx Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ)

/-- Row n's total: the sum over its pixels of the specification's contribution, the arrays as the region finds them. -/
def rowTotal (c : Dev nD) (n : Fin 32) : EReal :=
  ∑ h : Fin 384, ∑ w : Fin 384, Spec.pixel (V m c main_arg0) (V m c main_arg1) (V m c main_v0) n h w

/-- The row an entry of the output array belongs to. -/
def rowOf (i : S32x8x128.Idx) : Fin 32 := ⟨(i 0).val, (i 0).isLt⟩

/-- What the output array ends holding: at (n, a, b), row n's total. -/
def outArr (c : Dev nD) : S32x8x128.Idx → EReal := fun i => rowTotal m c (rowOf i)

/-- A grid point's number is a row number. -/
theorem point_lt (t : Fin cfg0.N) : t.val < 32 := lt_of_lt_of_eq t.isLt N_0

/-- A row number is a grid point's number. -/
theorem lt_points (n : Nat) (h : n < 32) : n < cfg0.N := lt_of_lt_of_eq h N_0.symm

/-- The printed index maps, decided over the grid: every window's block index is (t, 0, …, 0) at point t. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Point t's block of x, read as an array of one row, is row t of x. -/
theorem blk0_read (c : Dev nD) (t : Fin cfg0.N) (k : Fin 11) (a b : Fin 384) :
    iblk m c 0 t (ix4 (0 : Fin 1) k a b) = V m c main_arg0 (ix4 (⟨t.val, point_lt t⟩ : Fin 32) k a b) := by
  obtain ⟨e0, e1, e2, e3, -⟩ := idx_facts t
  show V m c main_arg0 (((cfg0.win 0).blk t).view.emb (ix4 (0 : Fin 1) k a b)) = _
  have h0 : ((cfg0.win 0).blk t).view.emb (ix4 (0 : Fin 1) k a b) = ix4 (⟨t.val, point_lt t⟩ : Fin 32) k a b := by
    funext e; apply Fin.ext
    match e with
    | ⟨0, _⟩ => show win0_0.index t (0 : Fin 4) * 1 + 1 * 0 = t.val; omega
    | ⟨1, _⟩ => show win0_0.index t (1 : Fin 4) * 11 + 1 * k.val = k.val; omega
    | ⟨2, _⟩ => show win0_0.index t (2 : Fin 4) * 384 + 1 * a.val = a.val; omega
    | ⟨3, _⟩ => show win0_0.index t (3 : Fin 4) * 384 + 1 * b.val = b.val; omega
  rw [h0]

/-- Point t's block of the centers is row t of the centers. -/
theorem blk1_read (c : Dev nD) (t : Fin cfg0.N) (k : Fin 11) (a b : Fin 384) :
    iblk m c 1 t (ix4 (0 : Fin 1) k a b) = V m c main_arg1 (ix4 (⟨t.val, point_lt t⟩ : Fin 32) k a b) := by
  obtain ⟨-, -, -, -, e0, e1, e2, e3, -⟩ := idx_facts t
  show V m c main_arg1 (((cfg0.win 1).blk t).view.emb (ix4 (0 : Fin 1) k a b)) = _
  have h0 : ((cfg0.win 1).blk t).view.emb (ix4 (0 : Fin 1) k a b) = ix4 (⟨t.val, point_lt t⟩ : Fin 32) k a b := by
    funext e; apply Fin.ext
    match e with
    | ⟨0, _⟩ => show win0_1.index t (0 : Fin 4) * 1 + 1 * 0 = t.val; omega
    | ⟨1, _⟩ => show win0_1.index t (1 : Fin 4) * 11 + 1 * k.val = k.val; omega
    | ⟨2, _⟩ => show win0_1.index t (2 : Fin 4) * 384 + 1 * a.val = a.val; omega
    | ⟨3, _⟩ => show win0_1.index t (3 : Fin 4) * 384 + 1 * b.val = b.val; omega
  rw [h0]

/-- Point t's block of the labels is row t of the labels. -/
theorem blk2_read (c : Dev nD) (t : Fin cfg0.N) (a b : Fin 384) :
    iblk m c 2 t (ix3 (0 : Fin 1) a b) = V m c main_v0 (ix3 (⟨t.val, point_lt t⟩ : Fin 32) a b) := by
  obtain ⟨-, -, -, -, -, -, -, -, e0, e1, e2, -⟩ := idx_facts t
  show V m c main_v0 (((cfg0.win 2).blk t).view.emb (ix3 (0 : Fin 1) a b)) = _
  have h0 : ((cfg0.win 2).blk t).view.emb (ix3 (0 : Fin 1) a b) = ix3 (⟨t.val, point_lt t⟩ : Fin 32) a b := by
    funext e; apply Fin.ext
    match e with
    | ⟨0, _⟩ => show win0_2.index t (0 : Fin 3) * 1 + 1 * 0 = t.val; omega
    | ⟨1, _⟩ => show win0_2.index t (1 : Fin 3) * 384 + 1 * a.val = a.val; omega
    | ⟨2, _⟩ => show win0_2.index t (2 : Fin 3) * 384 + 1 * b.val = b.val; omega
  rw [h0]

/-- WHAT POINT t WRITES BACK is block t of the array of row totals. -/
theorem flushed3_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  funext y
  show out0_3 (iblk m c 0 t) (iblk m c 1 t) (iblk m c 2 t) y = outArr m c (((cfg0.win 3).blk t).view.emb y)
  rw [out0_3_apply]
  obtain ⟨-, -, -, -, -, -, -, -, -, -, -, e0, -⟩ := idx_facts t
  have hrow : rowOf (((cfg0.win 3).blk t).view.emb y) = (⟨t.val, point_lt t⟩ : Fin 32) := Fin.ext (by
    show win0_3.index t (0 : Fin 3) * 1 + 1 * (y 0).val = t.val
    have hy : (y 0).val < 1 := (y 0).isLt
    omega)
  unfold outArr rowTotal
  rw [hrow]
  refine Finset.sum_congr rfl fun h _ => Finset.sum_congr rfl fun w _ => ?_
  exact Spec.pixel_congr _ _ _ _ _ _ (0 : Fin 1) (⟨t.val, point_lt t⟩ : Fin 32) (blk0_read m c t) (blk1_read m c t) (blk2_read m c t) h w

/-- An entry of the output array is in point t's block iff each coordinate is in the block's range on its axis. -/
theorem mem_blk3 (t : Fin cfg0.N) (i : S32x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v1).slice (win0_3.rect t)).set ↔ _
  rw [View.set_slice_whole, Rect.mem_set_unit]
  exact Iff.rfl

/-- Every entry (n, a, b) of the output array is in the block point n writes back. -/
theorem cover3 (i : S32x8x128.Idx) : ∃ t : Fin cfg0.N, (cfg0.win 3).flush t = true ∧ i ∈ ((cfg0.win 3).blk t).view.set := by
  have hi0 : (i 0).val < 32 := (i 0).isLt
  have hi1 : (i 1).val < 8 := (i 1).isLt
  have hi2 : (i 2).val < 128 := (i 2).isLt
  obtain ⟨t, ht⟩ : ∃ t : Fin cfg0.N, t.val = (i 0).val := ⟨⟨(i 0).val, lt_points _ hi0⟩, rfl⟩
  obtain ⟨-, -, -, -, -, -, -, -, -, -, -, e0, e1, e2⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8 ≤ (i 1).val ∧ (i 1).val < win0_3.index t (1 : Fin 3) * 8 + 8
    omega
  | ⟨2, _⟩ =>
    show win0_3.index t (2 : Fin 3) * 128 ≤ (i 2).val ∧ (i 2).val < win0_3.index t (2 : Fin 3) * 128 + 128
    omega

/-- THE OUTPUT ARRAY after the run: at (n, a, b), row n's total. -/
theorem final3 (c : Dev nD) : (dats m 0 c).arrAt 3 cfg0.N = outArr m c :=
  (dats m 0 c).arrAt_eq_of_cover 3 (outArr m c) (fun t _ => flushed3_eq m c t) cover3

end Cert.KernelValue

end
-- ==== Proof.KernelTail.lean ====
/-
  The host operations around the kernel's one region, read at the extended reals.

  Before the region the program converts the integer labels to floats; the region finds that array. After the region
  the program keeps entry (n, 0, 0) of each of the 32 rows of the output array, sums the 32 kept entries from the
  word of 0, and divides the sum by the word of the pixel count.
-/
import proofs.«131533_j1099511628281_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelValue

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The labels as the region finds them: the host's convert of the integer labels. -/
theorem V_main_v0 (c : Dev nD) : V m c main_v0 = sitofp (F := Ideal) .f32 (m ((c : Thread nD τ).loc main_arg2)) := by
  -- the one operation before the region writes this array from the labels as launched
  show StableHlo.after hostOps0 (fun b => m (c, b)) (Proc.devRef .tc main_v0) = _
  after_results

/-- A sum over the indices of a one-axis shape is the sum over the axis's coordinates. -/
theorem tail_sum_ix1 {n : Nat} (f : (⟨1, ![n]⟩ : Shape).Idx → EReal) : ∑ i, f i = ∑ k : Fin n, f (ix1 k) :=
  Fintype.sum_equiv ⟨fun i => i 0, fun k => ix1 k, fun i => (eq_ix1 i).symm, fun _ => rfl⟩ f (fun k => f (ix1 k))
    fun i => congrArg f (eq_ix1 i)

/-- The slice [0:32, 0:1, 0:1] at (n, 0, 0) is the array at (n, 0, 0): every offset is 0. -/
theorem tail_slice_at (A : S32x8x128.Idx → EReal) (hs : S32x8x128.Slices ![0, 0, 0] S32x1x1) (n : Fin 32) :
    extractStridedSlice S32x1x1 ![0, 0, 0] A hs (ix3 n (0 : Fin 1) (0 : Fin 1)) = A (ix3 n (0 : Fin 8) (0 : Fin 128)) :=
  extractStridedSlice_apply ![0, 0, 0] A hs _ _ fun a => by
    rcases a with ⟨_ | _ | _ | a, ha⟩
    · exact (Nat.zero_add _).symm
    · rfl
    · rfl
    · have h3 : a + 3 < 3 := ha
      omega

/-- The reshape of [32, 1, 1] to [32] at n is the operand at (n, 0, 0): both sit at row-major position n. -/
theorem tail_reshape_at (x : S32x1x1.Idx → EReal) (hc : S32x1x1.ShapeCasts S32) (n : Fin 32) :
    shapeCast S32 x hc (ix1 n) = x (ix3 n (0 : Fin 1) (0 : Fin 1)) :=
  shapeCast_apply x hc _ _ (by
    rw [Shape.rowMajor_val_three, Shape.rowMajor_val_one]
    show (n.val * 1 + 0) * 1 + 0 = n.val
    omega)

/-- The host's sum of a vector of 32 entries from the word of 0 is the sum of its entries. -/
theorem tail_sum_at (x : FVec Ideal S32 .f32) (hr : S32.ReducesTo [0] S_) (hu : 0 < S_.numel) (j : S_.Idx) :
    Host.reduceAdd (F := Ideal) x (constant (F := Ideal) S_ .f32 0x00000000#32) hr hu j = ∑ n : Fin 32, x (ix1 n) := by
  show Ideal.hostReduceAdd hr x (Ideal.ofBits .f32 0x00000000#32) j = _
  -- the result has no axis, so every entry of the vector reduces to its one index
  rw [Ideal.hostReduceAdd_total hr (fun b => b.elim0) x _ j, Ideal.ofBits_zero_f32, zero_add, tail_sum_ix1]

/-- The operations after the region as a function of the output array: the sum over the 32 rows of entry (n, 0, 0),
    over the word of the pixel count. -/
theorem tail_value (A : FVec Ideal S32x8x128 .f32) (hs : S32x8x128.Slices ![0, 0, 0] S32x1x1) (hc : S32x1x1.ShapeCasts S32)
    (hr : S32.ReducesTo [0] S_) (hu : 0 < S_.numel) (j : S_.Idx) :
    (Host.divf (F := Ideal) (Host.reduceAdd (F := Ideal) (fun i => shapeCast S32 (extractStridedSlice S32x1x1 ![0, 0, 0] A hs) hc i)
        (constant (F := Ideal) S_ .f32 0x00000000#32) hr hu) (constant (F := Ideal) S_ .f32 0x4A900000#32)) j
      = Ideal.div (∑ n : Fin 32, A (ix3 n (0 : Fin 8) (0 : Fin 128))) (Ideal.ofBits .f32 0x4A900000#32) := by
  show Ideal.div (Host.reduceAdd (F := Ideal) (fun i => shapeCast S32 (extractStridedSlice S32x1x1 ![0, 0, 0] A hs) hc i)
        (constant (F := Ideal) S_ .f32 0x00000000#32) hr hu j) (Ideal.ofBits .f32 0x4A900000#32) = _
  rw [tail_sum_at]
  refine congrArg (fun z => Ideal.div z _) (Finset.sum_congr rfl fun n _ => ?_)
  rw [tail_reshape_at, tail_slice_at]

/-- The program's result from the output array the region leaves: the sum over the 32 rows of the array's entry (n, 0, 0), from the zero word, over the word of the pixel count. -/
theorem tail_eq (c : Dev nD) (G : Buf (Elt Ideal) (((cfg0.win 3).arr.view.loc (c.tc : Thread nD τ)))) (hG : (dats m 0 c).arrAt 3 cfg0.N = G) :
    Pipeline.afterTail₀ cfgs (dats m) 0 (V0 m) [hostOps1] c main_v5
      = fun _ => Ideal.div (∑ n : Fin 32, G (ix3 n (0 : Fin 8) (0 : Fin 128))) (Ideal.ofBits .f32 0x4A900000#32) := by
  unfold Pipeline.afterTail₀
  show StableHlo.after hostOps1 _ (Proc.devRef .tc main_v5) = _
  after_results
  -- the region leaves the output array, window 3's, at G; no operation after the region writes it
  rw [show Pipeline.withArrays (cfgs 0).spec c (V0 m c) (fun w => (dats m 0 c).arrAt w (cfgs 0).N) (Proc.devRef .tc main_v1) = G from
    (Pipeline.withArrays_arr spec0 launch0.win.arr_inj c _ _ 3).trans hG]
  funext j
  exact tail_value G _ _ _ _ j

end Cert.KernelValue

end
-- ==== Proof.KernelRun.lean ====
/-
  The kernel program's run, its result named.

  After the region the output array holds row n's total at (n, a, b); the host's last operations take entry (n, 0, 0)
  of each row, sum the 32 of them from 0 and divide by the number of pixels. The region finds x and the centers as
  launched and the labels converted, so the result is the specification's loss of the three argument arrays.
-/
import proofs.«131533_j1099511628281_1_alg».proof.Proof.Gen.KernelIdeal.Frame
import proofs.«131533_j1099511628281_1_alg».proof.Proof.KernelArray
import proofs.«131533_j1099511628281_1_alg».proof.Proof.KernelTail
import proofs.«131533_j1099511628281_1_alg».proof.Proof.Spec

noncomputable section

open scoped BigOperators

namespace Cert.KernelValue

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- The program's result buffer after the host's last operations: the loss of the argument arrays. -/
theorem result_eq (c : Dev nD) :
    Pipeline.afterTail₀ cfgs (dats m) 0 (V0 m) [hostOps1] c main_v5
      = fun _ => Spec.loss (m ((c.tc : Thread nD τ).loc main_arg0)) (m ((c.tc : Thread nD τ).loc main_arg1)) (sitofp (F := Ideal) .f32 (m ((c.tc : Thread nD τ).loc main_arg2))) := by
  rw [tail_eq m c (outArr m c) (final3 m c)]
  funext _
  unfold Spec.loss
  refine congrArg (fun s => Ideal.div s (Ideal.ofBits .f32 0x4A900000#32)) (Finset.sum_congr rfl fun n _ => ?_)
  show rowTotal m c (rowOf (ix3 n (0 : Fin 8) (0 : Fin 128))) = _
  have hr : rowOf (ix3 n (0 : Fin 8) (0 : Fin 128)) = n := Fin.ext rfl
  rw [hr]
  unfold rowTotal
  rw [V_main_arg0, V_main_arg1, V_main_v0]

/-- Every weakly fair execution of the kernel program terminates with its result at the loss of the argument arrays
    and the arguments unchanged. -/
theorem run_value : θ_run defs (onTc (τ := τ) (main (F := Ideal))) ⟨m, fun _ => 0, ρ⟩ (fun r => ∀ c : Dev nD,
      r.2.mem ((c.tc : Thread nD τ).loc main_v5)
        = (fun _ => Spec.loss (m ((c.tc : Thread nD τ).loc main_arg0)) (m ((c.tc : Thread nD τ).loc main_arg1)) (sitofp (F := Ideal) .f32 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v5 (Pipeline.mem_restRefs_of main_v5 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelValue

end
-- ==== Proof.lean ====
/-
  The certificate of the batched center-loss kernel against its jnp reference, over the extended reals.

  Both programs compute, for every batch row and pixel, eleven logits x² + c² − 2·(x·c), a number derived from their
  softmax, its product with the pixel's label clipped to two bounds, and the mean of these over all rows and pixels. The
  reference takes the softmax's eleven probabilities and their maximum; the kernel takes 1 / Z, the reciprocal of the
  partition sum of the logits shifted by their maximum. For real logits the two agree: every shifted exponential is at
  most 1 and the largest is exactly 1 (Softmax.lean). The inputs are real by the precondition (Finite.lean), hence so
  are the logits (LogitReal.lean). The kernel sums a row's pixels inside the row's grid point and the 32 row totals on
  the host, the reference all at once: the same sum, grouped differently. Both runs end at the one function
  Spec.loss of the three argument arrays (KernelRun.lean; RefValue.lean over the reference's generated run).
  The three frames are the generated ones; the kernel's idealization rewrote nothing, so that conjunct is trivial.
-/
import proofs.«131533_j1099511628281_1_alg».proof.Defs
import proofs.«131533_j1099511628281_1_alg».proof.Proof.Gen.Kernel
import proofs.«131533_j1099511628281_1_alg».proof.Proof.Gen.Kernel.Skeleton
import proofs.«131533_j1099511628281_1_alg».proof.Proof.Gen.Kernel.Launch
import proofs.«131533_j1099511628281_1_alg».proof.Proof.Gen.Kernel.Points
import proofs.«131533_j1099511628281_1_alg».proof.Proof.Gen.Kernel.Frame
import proofs.«131533_j1099511628281_1_alg».proof.Proof.Gen.KernelIdeal
import proofs.«131533_j1099511628281_1_alg».proof.Proof.Gen.KernelIdeal.Skeleton
import proofs.«131533_j1099511628281_1_alg».proof.Proof.Gen.KernelIdeal.Launch
import proofs.«131533_j1099511628281_1_alg».proof.Proof.Gen.KernelIdeal.Points
import proofs.«131533_j1099511628281_1_alg».proof.Proof.Gen.KernelIdeal.Frame
import proofs.«131533_j1099511628281_1_alg».proof.Proof.Gen.ReferenceIdeal
import proofs.«131533_j1099511628281_1_alg».proof.Proof.Gen.Pre_finite_inputs
import proofs.«131533_j1099511628281_1_alg».proof.Proof.Gen.ReferenceIdeal.Run
import proofs.«131533_j1099511628281_1_alg».proof.Proof.Gen.ReferenceIdeal.Read
import proofs.«131533_j1099511628281_1_alg».proof.Proof.Finite
import proofs.«131533_j1099511628281_1_alg».proof.Proof.RefValue
import proofs.«131533_j1099511628281_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the loss of the argument arrays: the kernel's run by its value, the reference's by
    its generated run read as the specification, the arguments real under the precondition and agreeing by hypothesis. -/
theorem algebraic : Cert.algebraic_KernelIdeal_ReferenceIdeal := by
  intro m ρ m' ρ' hpre hagree
  refine ⟨fun c => fun _ => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (sitofp (F := Ideal) .f32 (m ((c.tc : Thread Cert.KernelIdeal.nD Cert.KernelIdeal.τ).loc Cert.KernelIdeal.main_arg2))), Cert.KernelValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨hr0, hr1⟩ := Cert.Finite.real_of_pre _ _ _ (hpre c)
  rw [Cert.ReferenceIdeal.Read.val_main_v23_eq, (hagree c).1, (hagree c).2.1, (hagree c).2.2]
  exact Cert.RefValue.ref_value _ _ _ hr0 hr1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
